-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedFrame.lean ====
/-
  The frame run of a one-region kernel whose input windows may read ONE array through several windows.

  The kernel is of the plainest kind: one region on a static grid, no semaphore or transfer of its own, nothing kept
  between grid points outside the staging buffers. What differs from the case of pairwise distinct arrays is only how
  the buffers behind the arrays are dealt to the windows at the region's entry: an array read by several input windows
  is held by each of them at a part of the full share, the parts composing to the whole. Given that entailment
  (`hsplit`) the run terminates, faults nowhere, leaves every array at what the write-backs make of the entry
  contents, and every other unscoped buffer as the region found it.

  Also here: a whole buffer at the full share is the same buffer held twice, at the left and the right half.
-/
import Idealize.ShloMosaic.Lib.Pipeline.Frame

noncomputable section

namespace SharedFrame

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

section Halves

variable {Ix : Type} [DecidableEq Ix] {Name : Type} [DecidableEq Name] {U : Type} [URA U] {Lvl : Type}

local notation "𝕄" => MT nD τ sig Ix Val Name U Lvl

/-- A buffer held whole at the full share is held at its left half and at its right half, at the same contents. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

/-- The windows' arrays, each a whole buffer, as points-tos of the buffers behind them, each at its window's share. -/
theorem arrays_eq_shares {Λ₀ : Idealize.SL.Sem.Labels} {cfg : Cfg sig Λ₀} {c : Dev nD} (dat : Dat τ Val Ix Name U Lvl cfg c)
    (harr : ∀ w, (cfg.spec w).arr.IsWhole)
    (F : (w : Fin cfg.W) → Buf Val ((cfg.win w).arr.view.loc (c.tc : Thread nD τ))) :
    dat.arrays F = bigSep Finset.univ fun w => (((c.tc : Thread nD τ).loc (arrRef cfg.spec w)) ↦{dat.share w} F w : sProp 𝕄) := by
  unfold Dat.arrays
  exact BI.bigSep_congr fun w _ => by rw [(harr w).set_eq_univ]

end Halves

section Run

variable {Λ₀ : Idealize.SL.Sem.Labels} {P : Type} [Fintype P] [DecidableEq P] [∀ e, Nonempty (Val e)]

local notation "𝕄" => MT nD τ sig Unit Val ℕ (UR sig nD τ) ℕ

/-- The frame run for windows that may share arrays. The layout facts are taken one by one (no two staging cells
    coincide; the arrays unscoped, the staging buffers scoped and distinct; no block empty; arrays and staging memrefs
    whole buffers); the proof data keep nothing in their invariant but the scoped buffers that are no staging buffer
    (`hΦ`), owe nothing, and say how the buffers behind the arrays make the windows' arrays at entry (`hsplit`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by iintro H; isplitr; · iempintro
                 iexact H)
    (fun c => by rw [hΦ]; iintro ⟨-, H⟩; iexact H)
    (fun c => by rw [hΦ]; iintro H; isplitr; · iempintro
                 iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Run

end SharedFrame

end
-- ==== Proof.KernelFrame.lean ====
/-
  The frame of the pairwise-distance kernel: every run of @main terminates without a fault and leaves the argument
  array unchanged, and the result array ends at what the 64 tiles' write-backs make of it.

  The region reads ONE argument array through TWO input windows: window 0 takes the block of 1024 rows at the grid's
  first coordinate, window 1 the block of 1024 rows at its second coordinate; window 2 is the result's tile. At the
  region's entry the argument's buffer is therefore held by the two input windows at the left and the right half of
  the full share, and the result's buffer by window 2 at the full share. At every grid point each input window's
  staging buffer holds its block of the argument as the region found it (an input window only reads), and the body
  stores into the output window's staging buffer ONE value: the body's arithmetic of the two loaded blocks.
-/
import proofs.«135878_j18416819765837_1_alg».proof.Proof.Gen.Kernel.Launch
import proofs.«135878_j18416819765837_1_alg».proof.Proof.Gen.Kernel.Skeleton
import proofs.«135878_j18416819765837_1_alg».proof.Proof.Gen.Kernel.Points
import proofs.«135878_j18416819765837_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Shared

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is
    not fetched the index has not moved and the body left the block in place). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output window's staging buffer after the body: its one store, of the body's arithmetic of the two loaded
    blocks, through the whole buffer's rectangle. -/
def out0_2 (x0 : Vec F S1024x512 .f32) (x1 : Vec F S1024x512 .f32) : Vec F S1024x1024 .f32 :=
  View.canon [⟨rOut, k0_pay1 (View.ld x0 rIn) (View.ld x1 rIn)⟩]

/-- The one store covers the buffer. -/
theorem cover0_2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the two inputs' at read contents `x0`, `x1` and the output's at anything,
    runs to the continuation holding the inputs' as they were and the output's at `out0_2 x0 x1`. -/
theorem sound_kernel (c : Dev nD) (E : Set ℕ) (i : grid0.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__pairwise_neg_l2_kernel i arg2 harg2 arg3 harg3 arg4 harg4) K := by
  simp only [cc0__pairwise_neg_l2_kernel_eq_skeleton]; unfold cc0__pairwise_neg_l2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline: the arrays as the region finds them; after the body at point `t` each input's
    buffer at its block and the output's at `out0_2` of the two input blocks; nothing kept between points but the scoped
    buffers that are no staging buffer; nothing owed; the argument's buffer held by window 0 at the left half and by
    window 1 at the right half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging memrefs hold their blocks, so `sound_kernel` applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The arrays at the region's entry -/

/-- The two buffers behind the three windows' arrays. -/
theorem arrRefs_eq : (Finset.univ.image (Pipeline.arrRef spec0) : Finset (Ref sig .tc)) = {main_arg0, main_v0} := by decide

/-- The buffers behind the arrays, each whole at the full share, make the windows' arrays at entry: the argument's
    buffer splits into its two halves, one for each input window; the result's buffer is window 2's. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [SharedFrame.arrays_eq_shares (dats m 0 c) arr_whole0, bigSep_W0]
  unfold Pipeline.arrBufs
  rw [arrRefs_eq, BI.bigSep_insert (by decide), BI.bigSep_singleton]
  change iprop((((c.tc : Thread nD τ).loc main_arg0) ↦{fullShare} V m c main_arg0) ∗ (((c.tc : Thread nD τ).loc main_v0) ↦{fullShare} V m c main_v0))
    ⊢ iprop((((c.tc : Thread nD τ).loc main_arg0) ↦{fullShare.left} V m c main_arg0)
        ∗ (((c.tc : Thread nD τ).loc main_arg0) ↦{fullShare.right} V m c main_arg0)
        ∗ (((c.tc : Thread nD τ).loc main_v0) ↦{fullShare} V m c main_v0))
  iintro ⟨Ha, Hv⟩
  ihave Hh := (SharedFrame.pointsTo_halves _ _) $$ Ha
  icases Hh with ⟨Hl, Hr⟩
  isplitl [Hl]; · iexact Hl
  isplitl [Hr]; · iexact Hr
  iexact Hv

/-! ## The run and the frame -/

set_option backward.isDefEq.respectTransparency.types false in
/-- From any memory with zero counters every weakly fair execution of @main terminates, and every final state has
    each window's array at what the write-backs make of the entry contents. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (arrays_entry m) (fun _ _ => rfl)

/-- The frame: @main runs to the end without a fault and the argument array ends as it was launched (an input
    window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.Kernel.Shared

end
-- ==== Proof.KernelIdealFrame.lean ====
/-
  The frame of the pairwise-distance kernel: every run of @main terminates without a fault and leaves the argument
  array unchanged, and the result array ends at what the 64 tiles' write-backs make of it.

  The region reads ONE argument array through TWO input windows: window 0 takes the block of 1024 rows at the grid's
  first coordinate, window 1 the block of 1024 rows at its second coordinate; window 2 is the result's tile. At the
  region's entry the argument's buffer is therefore held by the two input windows at the left and the right half of
  the full share, and the result's buffer by window 2 at the full share. At every grid point each input window's
  staging buffer holds its block of the argument as the region found it (an input window only reads), and the body
  stores into the output window's staging buffer ONE value: the body's arithmetic of the two loaded blocks.
-/
import proofs.«135878_j18416819765837_1_alg».proof.Proof.Gen.KernelIdeal.Launch
import proofs.«135878_j18416819765837_1_alg».proof.Proof.Gen.KernelIdeal.Skeleton
import proofs.«135878_j18416819765837_1_alg».proof.Proof.Gen.KernelIdeal.Points
import proofs.«135878_j18416819765837_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Shared

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is
    not fetched the index has not moved and the body left the block in place). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output window's staging buffer after the body: its one store, of the body's arithmetic of the two loaded
    blocks, through the whole buffer's rectangle. -/
def out0_2 (x0 : Vec F S1024x512 .f32) (x1 : Vec F S1024x512 .f32) : Vec F S1024x1024 .f32 :=
  View.canon [⟨rOut, k0_pay1 (View.ld x0 rIn) (View.ld x1 rIn)⟩]

/-- The one store covers the buffer. -/
theorem cover0_2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the two inputs' at read contents `x0`, `x1` and the output's at anything,
    runs to the continuation holding the inputs' as they were and the output's at `out0_2 x0 x1`. -/
theorem sound_kernel (c : Dev nD) (E : Set ℕ) (i : grid0.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__pairwise_neg_l2_kernel i arg2 harg2 arg3 harg3 arg4 harg4) K := by
  simp only [cc0__pairwise_neg_l2_kernel_eq_skeleton]; unfold cc0__pairwise_neg_l2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline: the arrays as the region finds them; after the body at point `t` each input's
    buffer at its block and the output's at `out0_2` of the two input blocks; nothing kept between points but the scoped
    buffers that are no staging buffer; nothing owed; the argument's buffer held by window 0 at the left half and by
    window 1 at the right half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging memrefs hold their blocks, so `sound_kernel` applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The arrays at the region's entry -/

/-- The two buffers behind the three windows' arrays. -/
theorem arrRefs_eq : (Finset.univ.image (Pipeline.arrRef spec0) : Finset (Ref sig .tc)) = {main_arg0, main_v0} := by decide

/-- The buffers behind the arrays, each whole at the full share, make the windows' arrays at entry: the argument's
    buffer splits into its two halves, one for each input window; the result's buffer is window 2's. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [SharedFrame.arrays_eq_shares (dats m 0 c) arr_whole0, bigSep_W0]
  unfold Pipeline.arrBufs
  rw [arrRefs_eq, BI.bigSep_insert (by decide), BI.bigSep_singleton]
  change iprop((((c.tc : Thread nD τ).loc main_arg0) ↦{fullShare} V m c main_arg0) ∗ (((c.tc : Thread nD τ).loc main_v0) ↦{fullShare} V m c main_v0))
    ⊢ iprop((((c.tc : Thread nD τ).loc main_arg0) ↦{fullShare.left} V m c main_arg0)
        ∗ (((c.tc : Thread nD τ).loc main_arg0) ↦{fullShare.right} V m c main_arg0)
        ∗ (((c.tc : Thread nD τ).loc main_v0) ↦{fullShare} V m c main_v0))
  iintro ⟨Ha, Hv⟩
  ihave Hh := (SharedFrame.pointsTo_halves _ _) $$ Ha
  icases Hh with ⟨Hl, Hr⟩
  isplitl [Hl]; · iexact Hl
  isplitl [Hr]; · iexact Hr
  iexact Hv

/-! ## The run and the frame -/

set_option backward.isDefEq.respectTransparency.types false in
/-- From any memory with zero counters every weakly fair execution of @main terminates, and every final state has
    each window's array at what the write-backs make of the entry contents. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (arrays_entry m) (fun _ _ => rfl)

/-- The frame: @main runs to the end without a fault and the argument array ends as it was launched (an input
    window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.KernelIdeal.Shared

end
-- ==== Proof.Spec.lean ====
/-
  The specification: the negated pairwise Euclidean distances of the rows of one matrix.

  For a matrix x of 8192 rows and 512 columns the result at (p, q) is −dist(p, q), where
    d²(p, q) = max (‖x_p‖² + ‖x_q‖² − 2·⟨x_p, x_q⟩, 0),
    dist(p, q) = √d² where d² > 0, and 0 elsewhere
  (the square root is taken of d² where d² > 0 and of 1 elsewhere, so it is never taken at 0),
  ‖x_p‖² = Σ_k x(p,k)² and ⟨x_p, x_q⟩ = Σ_k x(p,k)·x(q,k), over the extended reals.
  The same function is stated over two blocks of 1024 rows (`blockCell`): a tile of the result depends on a block of
  rows for its first coordinate and a block of rows for its second.
-/
import Idealize.ShloMosaic.PureOps.Ideal
import Idealize.ShloMosaic.Lib.ValueIdx

noncomputable section

namespace PairDist

open Idealize.ShloMosaic Idealize.ShloMosaic.ValueIdx

/-- The three float literals of the formula, as the extended reals their f32 words denote: 0, 1 and 2. -/
abbrev zeroW : EReal := FloatOps.ofBits (F := Ideal) .f32 0x00000000#32
abbrev oneW : EReal := FloatOps.ofBits (F := Ideal) .f32 0x3F800000#32
abbrev twoW : EReal := FloatOps.ofBits (F := Ideal) .f32 0x40000000#32

/-- The squared distance from the two squared norms `sa`, `sb` and the inner product `gr`, clamped below at 0. -/
def sqDist (sa sb gr : EReal) : EReal := max ((sa + sb) - twoW * gr) zeroW

/-- One entry of the result from the two squared norms and the inner product: minus the guarded square root of
    the clamped squared distance. -/
def cell (sa sb gr : EReal) : EReal :=
  -(Scalar.select (FloatOps.cmpf (F := Ideal) (φ := .f32) .ogt (sqDist sa sb gr) zeroW)
      (Ideal.sqrt (Scalar.select (FloatOps.cmpf (F := Ideal) (φ := .f32) .ogt (sqDist sa sb gr) zeroW) (sqDist sa sb gr) oneW))
      zeroW)

/-- The squared norm of row `p` of an `[n, 512]` matrix. -/
def rowSq {n : ℕ} (x : (⟨2, ![n, 512]⟩ : Shape).Idx → EReal) (p : Fin n) : EReal :=
  ∑ k : Fin 512, x (ix2 p k) * x (ix2 p k)

/-- The inner product of row `p` of `x` with row `q` of `y`. -/
def rowDot {n n' : ℕ} (x : (⟨2, ![n, 512]⟩ : Shape).Idx → EReal) (y : (⟨2, ![n', 512]⟩ : Shape).Idx → EReal)
    (p : Fin n) (q : Fin n') : EReal :=
  ∑ k : Fin 512, x (ix2 p k) * y (ix2 q k)

/-- Entry `(p, q)` of a tile from a block `a` of rows (first coordinate) and a block `b` of rows (second). -/
def blockCell {n n' : ℕ} (a : (⟨2, ![n, 512]⟩ : Shape).Idx → EReal) (b : (⟨2, ![n', 512]⟩ : Shape).Idx → EReal)
    (p : Fin n) (q : Fin n') : EReal :=
  cell (rowSq a p) (rowSq b q) (rowDot a b p q)

/-- The whole result: entry `(p, q)` is `blockCell x x p q`. -/
def G (x : (⟨2, ![8192, 512]⟩ : Shape).Idx → EReal) : (⟨2, ![8192, 8192]⟩ : Shape).Idx → EReal :=
  fun i => blockCell x x (i 0) (i 1)

theorem G_apply (x : (⟨2, ![8192, 512]⟩ : Shape).Idx → EReal) (p q : Fin 8192) :
    G x (ix2 p q) = blockCell x x p q := rfl

/-- A tile depends on its two blocks only through their rows: if the blocks' rows are rows of `x`, the tile's entry
    is the result's entry at those rows. -/
theorem blockCell_of_rows {n n' : ℕ} (x : (⟨2, ![8192, 512]⟩ : Shape).Idx → EReal)
    (a : (⟨2, ![n, 512]⟩ : Shape).Idx → EReal) (b : (⟨2, ![n', 512]⟩ : Shape).Idx → EReal)
    (p : Fin n) (q : Fin n') (P Q : Fin 8192)
    (ha : ∀ k : Fin 512, a (ix2 p k) = x (ix2 P k)) (hb : ∀ k : Fin 512, b (ix2 q k) = x (ix2 Q k)) :
    blockCell a b p q = blockCell x x P Q := by
  unfold blockCell rowSq rowDot
  simp only [ha, hb]

end PairDist

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.Payload.lean ====
/-
  The kernel body's stored value at an index: entry (p, q) of the tile computed from a block `a` of 1024 rows and a
  block `b` of 1024 rows is the specification's `blockCell a b p q`.

  Read at (p, q), the body's value is built from three numbers:
  • the column of squared norms of `a`: the row sums of a·a, kept as a column [1024, 1] and broadcast along the
    second axis, so (p, q) reads the sum over k of a(p, k)²;
  • the row of squared norms of `b`: the same column, transposed to [1, 1024] and broadcast along the first axis, so
    (p, q) reads the sum over k of b(q, k)²;
  • the product of `a` with the transpose of `b`, accumulated into zero: (p, q) reads the sum over k of
    a(p, k)·b(q, k) (narrowing to bf16 changes nothing over the extended reals).
  Everything after these is pointwise and is, term for term, the specification's `cell`; the final subtraction from
  the literal zero is a negation.
-/
import proofs.«135878_j18416819765837_1_alg».proof.Proof.Gen.KernelIdeal.Skeleton
import proofs.«135878_j18416819765837_1_alg».proof.Proof.Spec
import proofs.«135878_j18416819765837_1_alg».proof.Proof.LibRowOps
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The product's operand indices

  The product contracts axis 1 of its left operand [1024, 512] with axis 0 of its right operand [512, 1024]. At output
  index `i` and contraction position `c` the left operand is read at (i 0, c) and the right at (c, i 1). -/

theorem lhs_dot_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhs_dot_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhs_dot_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product accumulated into zero reads, at (p, q), the sum over k of the left operand at (p, k) times the right
    operand at (k, q). -/
theorem matmul_zero_apply (x : FVec Ideal S1024x512 .bf16) (y : FVec Ideal S512x1024 .bf16) (p q : Fin 1024) :
    matmul dot_S1024x512_S512x1024_S1024x1024_1_0_0_1_n_n none x y (constant (F := Ideal) S1024x1024 .f32 0x00000000#32) (ix2 p q)
      = ∑ k : Fin 512, x (ix2 p k) * y (ix2 k q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-! ## The three numbers at (p, q) -/

/-- A pointwise square root reads the square root of the element. -/
theorem sqrt_apply (x : FVec Ideal S1024x1024 .f32) (i : S1024x1024.Idx) : sqrt x i = Ideal.sqrt (x i) := rfl

/-- The row sums of x·x, kept as a column and broadcast along the second axis: (p, q) reads the squared norm of
    row p. -/
theorem colSq_apply (x : FVec Ideal S1024x512 .f32) (p q : Fin 1024) :
    broadcastTo S1024x1024
        (shapeCast S1024x1 (multiReduction (F := Ideal) .add [1] S1024 (mulf x x) 0x00000000#32 reduces_S1024x512_S1024 (.inl rfl) rfl)
          shapeCasts_S1024_S1024x1)
        broadcasts_S1024x1_S1024x1024 (ix2 p q)
      = PairDist.rowSq x p := by
  rw [RowOps.broadcastTo_a1_ab_apply, RowOps.shapeCast_a_a1_apply]
  exact (RowOps.multiReduction_add_row (mulf x x) 0x00000000#32 reduces_S1024x512_S1024 (.inl rfl) rfl p).trans rfl

/-- The same column, transposed to a row and broadcast along the first axis: (p, q) reads the squared norm of
    row q. -/
theorem rowSq_apply (x : FVec Ideal S1024x512 .f32) (p q : Fin 1024) :
    broadcastTo S1024x1024
        (transpose S1x1024 [1, 0]
          (shapeCast S1024x1 (multiReduction (F := Ideal) .add [1] S1024 (mulf x x) 0x00000000#32 reduces_S1024x512_S1024 (.inl rfl) rfl)
            shapeCasts_S1024_S1024x1)
          transposes_S1024x1_p1_0_S1x1024)
        broadcasts_S1x1024_S1024x1024 (ix2 p q)
      = PairDist.rowSq x q := by
  rw [broadcastTo_1b_ab_apply, transpose_ix2_apply, RowOps.shapeCast_a_a1_apply]
  exact (RowOps.multiReduction_add_row (mulf x x) 0x00000000#32 reduces_S1024x512_S1024 (.inl rfl) rfl q).trans rfl

/-- The product of a with the transpose of b, both narrowed, accumulated into zero: (p, q) reads the inner product of
    row p of a with row q of b. -/
theorem gram_apply (x y : FVec Ideal S1024x512 .f32) (p q : Fin 1024) :
    matmul dot_S1024x512_S512x1024_S1024x1024_1_0_0_1_n_n none (truncf .bf16 x bitsLt_bf16_f32)
        (transpose S512x1024 [1, 0] (truncf .bf16 y bitsLt_bf16_f32) transposes_S1024x512_p1_0_S512x1024)
        (constant (F := Ideal) S1024x1024 .f32 0x00000000#32) (ix2 p q)
      = PairDist.rowDot x y p q := by
  rw [matmul_zero_apply]
  unfold PairDist.rowDot
  refine Finset.sum_congr rfl fun k _ => ?_
  rw [transpose_ix2_apply]
  rfl

/-! ## The stored value -/

theorem pay_apply (a b : Vec Ideal S1024x512 .f32) (p q : Fin 1024) :
    k0_pay1 (F := Ideal) a b (ix2 p q) = PairDist.blockCell a b p q := by
  unfold k0_pay1
  -- every operation after the three numbers is pointwise: read each at (p, q)
  simp only [subf_apply, select_apply, cmpf_apply, broadcast_apply, maximumf_apply, mulf_apply, addf_apply, sqrt_apply]
  -- the three numbers
  rw [colSq_apply a p q, rowSq_apply b p q, gram_apply a b p q]
  -- what is left is the specification's cell, with literal zero minus it in place of its negation
  unfold PairDist.blockCell PairDist.cell PairDist.sqDist
  show Ideal.ofBits .f32 0x00000000#32 - _ = -_
  rw [Ideal.ofBits_zero_f32, zero_sub]

end Cert.KernelIdeal.Payload

end
-- ==== Proof.Tiles.lean ====
/-
  From tiles to the array: after the run the result array holds the specification of the argument.

  At grid point t = (i, j) the first input window's block is rows 1024·i … 1024·i + 1023 of the argument, the second's
  rows 1024·j … 1024·j + 1023, and the output window's block is the tile of rows 1024·i … and columns 1024·j … of the
  result. Entry (p, q) of what the point writes back is `blockCell` of the two blocks at (p, q), which depends only
  on row p of the first block and row q of the second, that is on rows 1024·i + p and 1024·j + q of the argument: it is
  the specification at (1024·i + p, 1024·j + q), the tile's own index. The 64 tiles cover the array, so the array
  ends at the specification everywhere.
-/
import proofs.«135878_j18416819765837_1_alg».proof.Proof.KernelIdealFrame
import proofs.«135878_j18416819765837_1_alg».proof.Proof.Payload
import proofs.«135878_j18416819765837_1_alg».proof.Proof.Spec
import Idealize.ShloMosaic.Lib.Pipeline.Value
import Idealize.ShloMosaic.Lib.ValueIdx

set_option maxRecDepth 16384

noncomputable section

namespace Cert.KernelIdeal.Tiles

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Shared

variable (m : (ℓ : Loc nD τ sig) → Buf (Elt Ideal) ℓ) (ρ : Dev nD → PrngReg)

theorem origin_eq : (![0, 0] : Fin 2 → Nat) = fun _ => 0 := funext fun a => by fin_cases a <;> rfl

/-- The printed index maps, decided over the grid: the first input window's block index is the tile's row index, the
    second's is the tile's column index, both at column block 0; the tile's indices stay below 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile is some point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point `t` writes back is tile `t` of the specification of the argument as the region finds it. -/
theorem flushed_eq (c : Dev nD) (t : Fin cfg0.N) :
    (dats m 0 c).flushed 2 t = ((cfg0.win 2).blk t).view.read (Elt Ideal) (PairDist.G (V m c main_arg0)) := by
  show (cfg0.win 2).cut (grid0.coords t) ((dats m 0 c).after 2 t) = _
  rw [after0_2]
  unfold out0_2
  rw [View.canon_unit_zero origin_eq]
  simp only [View.ld_unit_zero (S := S1024x512) origin_eq]
  obtain ⟨e0, e1, e2, e3, e4, e5⟩ := index_facts t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = PairDist.blockCell (V m c main_arg0) (V m c main_arg0)
        ((((cfg0.win 2).blk t).view.emb (ix2 p q)) 0) ((((cfg0.win 2).blk t).view.emb (ix2 p q)) 1)
  refine (Cert.KernelIdeal.Payload.pay_apply (iblk m c 0 t) (iblk m c 1 t) p q).trans ?_
  refine PairDist.blockCell_of_rows (V m c main_arg0) (iblk m c 0 t) (iblk m c 1 t) p q _ _ (fun k => ?_) (fun k => ?_)
  · show V m c main_arg0 (((cfg0.win 0).blk t).view.emb (ix2 p k)) = V m c main_arg0 (ix2 _ k)
    refine congrArg (V m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  · show V m c main_arg0 (((cfg0.win 1).blk t).view.emb (ix2 q k)) = V m c main_arg0 (ix2 _ k)
    refine congrArg (V m c main_arg0) (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 512 + 1 * k.val = k.val; omega

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the tile of the point at (row / 1024, column / 1024), which writes back. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run: the specification of the argument as the region found it. -/
theorem result_final (c : Dev nD) : (dats m 0 c).arrAt 2 cfg0.N = PairDist.G (V m c main_arg0) :=
  (dats m 0 c).arrAt_eq_of_cover 2 (PairDist.G (V m c main_arg0)) (fun t _ => flushed_eq m c t) tiles_cover

/-- The run at the ideal values: the result array ends at the specification of the argument, the argument unchanged. -/
theorem run : θ_run defs (onTc (τ := τ) (main (F := Ideal))) ⟨m, fun _ => 0, ρ⟩ fun r => ∀ c : Dev nD,
      r.2.mem ((c.tc : Thread nD τ).loc main_v0) = PairDist.G (m ((c.tc : Thread nD τ).loc main_arg0))
      ∧ r.2.mem ((c.tc : Thread nD τ).loc main_arg0) = m ((c.tc : Thread nD τ).loc main_arg0) :=
  (θ_run defs _ _).mono (fun r h c => ⟨((h c).1 2).trans (result_final m c),
      ((h c).1 0).trans (((dats m 0 c).arrAt_in 0 rfl _).trans ((A_eq m c 0).trans (V_main_arg0 m c)))⟩)
    (run_main m ρ)

end Cert.KernelIdeal.Tiles

end
-- ==== Proof.RefValue.lean ====
/-
  The reference computes the specification: read one operation at a time at an index (p, q), the reference's result is
  minus the guarded square root of max (‖x_p‖² + ‖x_q‖² − 2⟨x_p, x_q⟩, 0).
-/
import proofs.«135878_j18416819765837_1_alg».proof.Proof.Gen.ReferenceIdeal.Read
import proofs.«135878_j18416819765837_1_alg».proof.Proof.Spec

noncomputable section

namespace Cert.ReferenceIdeal.RefValue

open Idealize.ShloMosaic Idealize.ShloMosaic.ValueIdx Cert.ReferenceIdeal Cert.ReferenceIdeal.Read

theorem ref_is_spec (x : (⟨S8192x512, .f32⟩ : BufTy).Contents (Elt Ideal)) :
    val_main_v21 (F := Ideal) x = PairDist.G x := by
  funext i
  obtain ⟨p, q, rfl⟩ : ∃ (p q : Fin 8192), i = ix2 p q := ⟨i 0, i 1, eq_ix2 i⟩
  rw [PairDist.G_apply]
  -- The first squared norm, broadcast along the second axis, is read at row p: its k-th summand is x(p, k)·x(p, k).
  have h1 : ∀ k : Fin 512, idx_main_v1 (idx_main_v4 (idx_main_v6 (ix2 p q))) k = ix2 p k := fun k =>
    funext fun a => Fin.ext (by match a with | ⟨0, _⟩ => rfl | ⟨1, _⟩ => rfl)
  -- The second squared norm, broadcast along the first axis, is read at row q: its k-th summand is x(q, k)·x(q, k).
  have h2 : ∀ k : Fin 512, idx_main_v1 (idx_main_v5 (idx_main_v7 (ix2 p q))) k = ix2 q k := fun k =>
    funext fun a => Fin.ext (by match a with | ⟨0, _⟩ => rfl | ⟨1, _⟩ => rfl)
  -- The product's left factor at (p, q), k is x(p, k).
  have h3 : ∀ k : Fin 512, lidx_main_v3 (ix2 p q) k = ix2 p k := fun k =>
    funext fun a => Fin.ext (by match a with | ⟨0, _⟩ => rfl | ⟨1, _⟩ => rfl)
  -- The product's right factor at (p, q), k is the transpose at (k, q), which is x(q, k).
  have h4 : ∀ k : Fin 512, idx_main_v2 (ridx_main_v3 (ix2 p q) k) = ix2 q k := fun k =>
    funext fun a => Fin.ext (by match a with | ⟨0, _⟩ => rfl | ⟨1, _⟩ => rfl)
  -- The row sum starts from the literal 0x00000000, which is 0: 0 + s = s.
  have hz : ∀ s : EReal, (FloatOps.ofBits (F := Ideal) .f32 0x00000000#32 : EReal) + s = s := fun s => by
    rw [Ideal.ofBits_def, Ideal.ofBits_zero_f32, zero_add]
  -- Read every operation at (p, q) from its operands, the last operation first.
  simp only [val_main_v21_apply, val_main_v20_apply, val_main_call1_v1_apply, val_main_call1_v0_apply,
    val_main_cst_5_apply, val_main_v19_apply, val_main_v18_apply, val_main_v17_apply, val_main_cst_4_apply,
    val_main_v16_apply, val_main_call0_v1_apply, val_main_call0_v0_apply, val_main_cst_3_apply,
    val_main_v15_apply, val_main_v14_apply, val_main_cst_2_apply, val_main_v13_apply, val_main_v12_apply,
    val_main_cst_1_apply, val_main_v11_apply, val_main_v10_apply, val_main_v9_apply, val_main_cst_0_apply,
    val_main_v8_apply, val_main_v7_apply, val_main_v6_apply, val_main_v5_apply, val_main_v4_apply,
    val_main_v3_apply, val_main_v2_apply, val_main_v1_apply, val_main_cst_apply, val_main_v0_apply]
  simp only [h1, h2, h3, h4, hz]
  -- Both sides are now the same term: the negation is −, the square root is the extended reals' square root,
  -- and the sums are the squared norms of rows p and q and their inner product.
  unfold PairDist.blockCell PairDist.cell PairDist.sqDist PairDist.rowSq PairDist.rowDot
  rfl

end Cert.ReferenceIdeal.RefValue

end
-- ==== Proof.lean ====
/-
  The certificate of the pairwise negative-distance kernel against its reference.

  Both programs compute, for a matrix x of 8192 rows, the matrix of −dist(x_p, x_q) with
  dist² = max (‖x_p‖² + ‖x_q‖² − 2⟨x_p, x_q⟩, 0) and the square root guarded at 0 (`PairDist.G`).
  • The kernel tiles the result 8 × 8; each grid point reads the block of rows of its tile's row index and the block of
    rows of its tile's column index — two windows on the one argument array — and stores the tile. Its frame, at the
    word-level and at the ideal values, is the frame run for windows sharing an array; at the ideal values the tiles it
    writes back are the specification read through the tiles, and the tiles cover the result.
  • The reference is a straight line of host operations; read one operation at a time at an index it is the same
    specification.
  No law of the extended reals beyond 0 + s = s and 0 − s = −s is needed: the two sides are the same term, so the
  finiteness of the input is never opened. The idealization rewrote nothing, so the preservation claim is trivial.
-/
import proofs.«135878_j18416819765837_1_alg».proof.Defs
import proofs.«135878_j18416819765837_1_alg».proof.Proof.Gen.Kernel
import proofs.«135878_j18416819765837_1_alg».proof.Proof.Gen.Kernel.Skeleton
import proofs.«135878_j18416819765837_1_alg».proof.Proof.Gen.Kernel.Launch
import proofs.«135878_j18416819765837_1_alg».proof.Proof.Gen.Kernel.Points
import proofs.«135878_j18416819765837_1_alg».proof.Proof.Gen.KernelIdeal
import proofs.«135878_j18416819765837_1_alg».proof.Proof.Gen.KernelIdeal.Skeleton
import proofs.«135878_j18416819765837_1_alg».proof.Proof.Gen.KernelIdeal.Launch
import proofs.«135878_j18416819765837_1_alg».proof.Proof.Gen.KernelIdeal.Points
import proofs.«135878_j18416819765837_1_alg».proof.Proof.Gen.ReferenceIdeal
import proofs.«135878_j18416819765837_1_alg».proof.Proof.Gen.Pre_finite_inputs
import proofs.«135878_j18416819765837_1_alg».proof.Proof.Gen.ReferenceIdeal.Run
import proofs.«135878_j18416819765837_1_alg».proof.Proof.Gen.ReferenceIdeal.Read
import proofs.«135878_j18416819765837_1_alg».proof.Proof.KernelFrame
import proofs.«135878_j18416819765837_1_alg».proof.Proof.KernelIdealFrame
import proofs.«135878_j18416819765837_1_alg».proof.Proof.Tiles
import proofs.«135878_j18416819765837_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_k : Cert.frame_Kernel := fun m ρ _ => Cert.Kernel.Shared.frame m ρ

/-- The kernel at the ideal values runs and leaves its argument unchanged. -/
theorem frame_ki : Cert.frame_KernelIdeal := fun m ρ _ => Cert.KernelIdeal.Shared.frame m ρ

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the specification of that argument in their
    result arrays. -/
theorem algebraic : Cert.algebraic_KernelIdeal_ReferenceIdeal := by
  intro m ρ m' ρ' _ hagree
  refine ⟨fun c => PairDist.G (m ((c.tc : Thread Cert.KernelIdeal.nD Cert.KernelIdeal.τ).loc Cert.KernelIdeal.main_arg0)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_is_spec, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
